-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x300x1152 : Shape := ⟨3, ![256, 300, 1152]⟩
abbrev S256 : Shape := ⟨1, ![256]⟩
abbrev S285x1152 : Shape := ⟨2, ![285, 1152]⟩
abbrev S285 : Shape := ⟨1, ![285]⟩
abbrev S_ : Shape := ⟨0, ![]⟩

class Facts : Prop where
  bcast_S_S256x300x1152 : S_.BroadcastsInDim S256x300x1152 (![] : Fin 0 → Fin S256x300x1152.rank)
  reducesTo_S256x300x1152_S_d0_1_2 : S256x300x1152.ReducesTo [0, 1, 2] S_
  h_S_ : 0 < S_.numel
  bcast_S_S285x1152 : S_.BroadcastsInDim S285x1152 (![] : Fin 0 → Fin S285x1152.rank)
  reducesTo_S285x1152_S_d0_1 : S285x1152.ReducesTo [0, 1] S_
  bcast_S_S285 : S_.BroadcastsInDim S285 (![] : Fin 0 → Fin S285.rank)
  reducesTo_S285_S_d0 : S285.ReducesTo [0] S_

variable [Facts]

def fn {F : FTy → Type} [FloatOps F] (main_arg0 : FVec F S256x300x1152 .f32) (main_arg1 : IVec S256 32) (main_arg2 : FVec F S285x1152 .f32) (main_arg3 : FVec F S285 .f32) : IVec S_ 1 :=
  let main_v0 : FVec F S256x300x1152 .f32 := Host.absf main_arg0
  let main_cst : FVec F S_ .f32 := constant S_ .f32 0x7F800000#32
  let main_v1 : FVec F S256x300x1152 .f32 := broadcastInDim S256x300x1152 ![] bcast_S_S256x300x1152 main_cst
  let main_v2 : IVec S256x300x1152 1 := cmpf .olt main_v0 main_v1
  let main_c : IVec S_ 1 := constantI S_ 1 1#1
  let main_v3 : IVec S_ 1 := (fun x v => Host.reduce IntOp.andi x v reducesTo_S256x300x1152_S_d0_1_2 h_S_) main_v2 main_c
  let main_v4 : FVec F S285x1152 .f32 := Host.absf main_arg2
  let main_cst_0 : FVec F S_ .f32 := constant S_ .f32 0x7F800000#32
  let main_v5 : FVec F S285x1152 .f32 := broadcastInDim S285x1152 ![] bcast_S_S285x1152 main_cst_0
  let main_v6 : IVec S285x1152 1 := cmpf .olt main_v4 main_v5
  let main_c_1 : IVec S_ 1 := constantI S_ 1 1#1
  let main_v7 : IVec S_ 1 := (fun x v => Host.reduce IntOp.andi x v reducesTo_S285x1152_S_d0_1 h_S_) main_v6 main_c_1
  let main_v8 : IVec S_ 1 := andi main_v3 main_v7
  let main_v9 : FVec F S285 .f32 := Host.absf main_arg3
  let main_cst_2 : FVec F S_ .f32 := constant S_ .f32 0x7F800000#32
  let main_v10 : FVec F S285 .f32 := broadcastInDim S285 ![] bcast_S_S285 main_cst_2
  let main_v11 : IVec S285 1 := cmpf .olt main_v9 main_v10
  let main_c_3 : IVec S_ 1 := constantI S_ 1 1#1
  let main_v12 : IVec S_ 1 := (fun x v => Host.reduce IntOp.andi x v reducesTo_S285_S_d0 h_S_) main_v11 main_c_3
  let main_v13 : IVec S_ 1 := andi main_v8 main_v12
  main_v13
-- ==== Kernel.lean ====
abbrev S256x300x1152 : Shape := ⟨3, ![256, 300, 1152]⟩
abbrev S256 : Shape := ⟨1, ![256]⟩
abbrev S285x1152 : Shape := ⟨2, ![285, 1152]⟩
abbrev S285 : Shape := ⟨1, ![285]⟩
abbrev S256x1 : Shape := ⟨2, ![256, 1]⟩
abbrev S1x285 : Shape := ⟨2, ![1, 285]⟩
abbrev S256x285 : Shape := ⟨2, ![256, 285]⟩
abbrev S8x300x1152 : Shape := ⟨3, ![8, 300, 1152]⟩
abbrev S8x1 : Shape := ⟨2, ![8, 1]⟩
abbrev S8x285 : Shape := ⟨2, ![8, 285]⟩
abbrev S8x1152 : Shape := ⟨2, ![8, 1152]⟩
abbrev S1152x285 : Shape := ⟨2, ![1152, 285]⟩

abbrev nBuf : Space → Nat
  | .hbm => 8
  | .vmem => 8
  | .smem => 0
  | _ => 0

abbrev bufTy : (tb : Table) → Fin (tcTables nBuf tb) → BufTy
  | .hbm, ⟨0, _⟩ => ⟨S256x300x1152, .f32⟩
  | .hbm, ⟨1, _⟩ => ⟨S256, .i32⟩
  | .hbm, ⟨2, _⟩ => ⟨S285x1152, .f32⟩
  | .hbm, ⟨3, _⟩ => ⟨S285, .f32⟩
  | .hbm, ⟨4, _⟩ => ⟨S256, .f32⟩
  | .hbm, ⟨5, _⟩ => ⟨S256x1, .f32⟩
  | .hbm, ⟨6, _⟩ => ⟨S1x285, .f32⟩
  | .hbm, ⟨7, _⟩ => ⟨S256x285, .f32⟩
  | .local _ .vmem, ⟨0, _⟩ => ⟨S8x300x1152, .f32⟩
  | .local _ .vmem, ⟨1, _⟩ => ⟨S8x300x1152, .f32⟩
  | .local _ .vmem, ⟨2, _⟩ => ⟨S285x1152, .f32⟩
  | .local _ .vmem, ⟨3, _⟩ => ⟨S1x285, .f32⟩
  | .local _ .vmem, ⟨4, _⟩ => ⟨S8x1, .f32⟩
  | .local _ .vmem, ⟨5, _⟩ => ⟨S8x1, .f32⟩
  | .local _ .vmem, ⟨6, _⟩ => ⟨S8x285, .f32⟩
  | .local _ .vmem, ⟨7, _⟩ => ⟨S8x285, .f32⟩
  | _, _ => ⟨S256x300x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x300x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S285x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x285 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x285 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S256x1 : S256.ShapeCasts S256x1
  shapeCasts_S285_S1x285 : S285.ShapeCasts S1x285
  inb_S8x300x1152_S8x300x1152_0_0_0 : ∀ a, (![0, 0, 0] : Fin 3 → Nat) a + S8x300x1152.size a ≤ S8x300x1152.size a
  h_S8x300x1152 : 0 < S8x300x1152.numel
  reduces_S8x300x1152_S8x1152 : S8x300x1152.Reduces [1] S8x1152
  inb_S285x1152_S285x1152_0_0 : ∀ a, (![0, 0] : Fin 2 → Nat) a + S285x1152.size a ≤ S285x1152.size a
  h_S285x1152 : 0 < S285x1152.numel
  bitsLt_bf16_f32 : FTy.bits .bf16 < FTy.bits .f32
  transposes_S285x1152_p1_0_S1152x285 : S285x1152.Transposes [1, 0] S1152x285
  inb_S1x285_S1x285_0_0 : ∀ a, (![0, 0] : Fin 2 → Nat) a + S1x285.size a ≤ S1x285.size a
  h_S1x285 : 0 < S1x285.numel
  shapeCasts_S1x285_S1x285 : S1x285.ShapeCasts S1x285
  broadcasts_S1x285_S8x285 : S1x285.Broadcasts S8x285
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x285 : S8x1.Broadcasts S8x285
  inb_S8x285_S8x285_0_0 : ∀ a, (![0, 0] : Fin 2 → Nat) a + S8x285.size a ≤ S8x285.size a
  h_S8x285 : 0 < S8x285.numel
  dot_S8x1152_S1152x285_S8x285_1_0_0_1_n_n_wf : DotDims.WF S8x1152 S1152x285 S8x285 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x300x1152.size a ≤ S256x300x1152.size a
  hwx0_0 : ∀ i : grid0.Coords, EltTy.bits .f32 = 32 ∨ (Rect.block (s := S256x300x1152) S8x300x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S285x1152.size a ≤ S285x1152.size a
  hwx0_1 : ∀ i : grid0.Coords, EltTy.bits .f32 = 32 ∨ (Rect.block (s := S285x1152) S285x1152.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x285.size a ≤ S1x285.size a
  hwx0_2 : ∀ i : grid0.Coords, EltTy.bits .f32 = 32 ∨ (Rect.block (s := S1x285) S1x285.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S256x1.size a
  hwx0_3 : ∀ i : grid0.Coords, EltTy.bits .f32 = 32 ∨ (Rect.block (s := S256x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x285.size a ≤ S256x285.size a
  hwx0_4 : ∀ i : grid0.Coords, EltTy.bits .f32 = 32 ∨ (Rect.block (s := S256x285) S8x285.size (cc0_transform_4 i) (hinb0_4 i)).WholeWords (EltTy.packing .f32)

variable [Facts₀]

def dot_S8x1152_S1152x285_S8x285_1_0_0_1_n_n : DotDims S8x1152 S1152x285 S8x285 where
  lhsContracting := [1]
  rhsContracting := [0]
  lhsNonContracting := [0]
  rhsNonContracting := [1]
  lhsBatch := []
  rhsBatch := []
  wf := dot_S8x1152_S1152x285_S8x285_1_0_0_1_n_n_wf

abbrev win0_0 : Pipeline.Window sig grid0 :=
  Pipeline.Window.ofSpec (Memref.whole main_arg0) S8x300x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S285x1152.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x285.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x285.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x300x1152 : Shape := ⟨3, ![256, 300, 1152]⟩
abbrev S256 : Shape := ⟨1, ![256]⟩
abbrev S285x1152 : Shape := ⟨2, ![285, 1152]⟩
abbrev S285 : Shape := ⟨1, ![285]⟩
abbrev S_ : Shape := ⟨0, ![]⟩
abbrev S256x1152 : Shape := ⟨2, ![256, 1152]⟩
abbrev S256x285 : Shape := ⟨2, ![256, 285]⟩
abbrev S1x285 : Shape := ⟨2, ![1, 285]⟩
abbrev S256x1 : Shape := ⟨2, ![256, 1]⟩

abbrev nBuf : Space → Nat
  | .hbm => 23
  | .vmem => 0
  | .smem => 0
  | _ => 0

abbrev bufTy : (tb : Table) → Fin (tcTables nBuf tb) → BufTy
  | .hbm, ⟨0, _⟩ => ⟨S256x300x1152, .f32⟩
  | .hbm, ⟨1, _⟩ => ⟨S256, .i32⟩
  | .hbm, ⟨2, _⟩ => ⟨S285x1152, .f32⟩
  | .hbm, ⟨3, _⟩ => ⟨S285, .f32⟩
  | .hbm, ⟨4, _⟩ => ⟨S_, .f32⟩
  | .hbm, ⟨5, _⟩ => ⟨S256x300x1152, .f32⟩
  | .hbm, ⟨6, _⟩ => ⟨S256x300x1152, .f32⟩
  | .hbm, ⟨7, _⟩ => ⟨S_, .f32⟩
  | .hbm, ⟨8, _⟩ => ⟨S256x300x1152, .f32⟩
  | .hbm, ⟨9, _⟩ => ⟨S256x300x1152, .f32⟩
  | .hbm, ⟨10, _⟩ => ⟨S_, .f32⟩
  | .hbm, ⟨11, _⟩ => ⟨S256x1152, .f32⟩
  | .hbm, ⟨12, _⟩ => ⟨S256x285, .f32⟩
  | .hbm, ⟨13, _⟩ => ⟨S_, .f32⟩
  | .hbm, ⟨14, _⟩ => ⟨S285, .f32⟩
  | .hbm, ⟨15, _⟩ => ⟨S285, .f32⟩
  | .hbm, ⟨16, _⟩ => ⟨S1x285, .f32⟩
  | .hbm, ⟨17, _⟩ => ⟨S256x285, .f32⟩
  | .hbm, ⟨18, _⟩ => ⟨S256x285, .f32⟩
  | .hbm, ⟨19, _⟩ => ⟨S256, .f32⟩
  | .hbm, ⟨20, _⟩ => ⟨S256x1, .f32⟩
  | .hbm, ⟨21, _⟩ => ⟨S256x285, .f32⟩
  | .hbm, ⟨22, _⟩ => ⟨S256x285, .f32⟩
  | _, _ => ⟨S256x300x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S_S256x300x1152 : S_.BroadcastsInDim S256x300x1152 (![] : Fin 0 → Fin S256x300x1152.rank)
  reducesTo_S256x300x1152_S256x1152_d1 : S256x300x1152.ReducesTo [1] S256x1152
  h_S_ : 0 < S_.numel
  bcast_S_S285 : S_.BroadcastsInDim S285 (![] : Fin 0 → Fin S285.rank)
  bcast_S285_S1x285_1 : S285.BroadcastsInDim S1x285 (![1] : Fin 1 → Fin S1x285.rank)
  bcast_S1x285_S256x285_0_1 : S1x285.BroadcastsInDim S256x285 (![0, 1] : Fin 2 → Fin S256x285.rank)
  bcast_S256_S256x1_0 : S256.BroadcastsInDim S256x1 (![0] : Fin 1 → Fin S256x1.rank)
  bcast_S256x1_S256x285_0_1 : S256x1.BroadcastsInDim S256x285 (![0, 1] : Fin 2 → Fin S256x285.rank)
  dot_S256x1152_S285x1152_S256x285_1_1_0_0_n_n_wf : DotDims.WF S256x1152 S285x1152 S256x285 [1] [1] [0] [0] [] []

variable [Facts₀]

def dot_S256x1152_S285x1152_S256x285_1_1_0_0_n_n : DotDims S256x1152 S285x1152 S256x285 where
  lhsContracting := [1]
  rhsContracting := [1]
  lhsNonContracting := [0]
  rhsNonContracting := [0]
  lhsBatch := []
  rhsBatch := []
  wf := dot_S256x1152_S285x1152_S256x285_1_1_0_0_n_n_wf

class Facts : Prop extends Facts₀ where

variable [Facts]
-- ==== Proof.Finite.lean ====
/- What the precondition gives: every entry of the activations `x` is a real number.

   The precondition is the conjunction of three `all (|·| < +∞)` tests, one per float argument. Reading the first
   one back at an index: |x i| < +∞ excludes both infinities, so `x i` is the image of a real. (Only `x` is needed:
   the weights, the bias and the lengths enter both programs through the same operations.) -/
import proofs.«180691_j89833535963820_1_alg».proof.Pre_finite_inputs
import proofs.«180691_j89833535963820_1_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The pattern `0x7F800000` is +∞. -/
theorem ofBits_inf : Ideal.ofBits .f32 0x7F800000#32 = (⊤ : EReal) := by
  simp [Ideal.ofBits, Ideal.ieee]

/-- An extended real whose absolute value is strictly below +∞ is a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Under the precondition every entry of `x` is a real. -/
theorem x_real (x : FVec Ideal S256x300x1152 .f32) (len : IVec S256 32) (W : FVec Ideal S285x1152 .f32)
    (b : FVec Ideal S285 .f32) (h : fn (F := Ideal) x len W b = fun _ => 1#1) (i : S256x300x1152.Idx) :
    ∃ r : ℝ, x i = (r : EReal) := by
  have h0 := congrFun h ix0
  dsimp only [fn] at h0
  obtain ⟨h1, -⟩ := IntOp.andi_eq_one.1 h0
  obtain ⟨h2, -⟩ := IntOp.andi_eq_one.1 h1
  have h3 := Host.reduce_andi_all _ _ _ _ _ h2 i
  exact real_of_abs_lt_inf (x i) h3

end Cert.Finite

end
-- ==== Proof.Consts.lean ====
/- The float literals whose VALUES the equivalence uses, as the extended reals their binary patterns denote:
   the kernel's scale 2⁻⁶ and offset 600, the reference's divisor 64 and offset 2. (The factor 300 on the bias
   is the same word in both programs and is never evaluated.) -/
import Idealize.ShloMosaic.PureOps.Ideal

noncomputable section

namespace Cert.Consts

open Idealize.ShloMosaic

/-- `0x3C800000` is 2⁻⁶ = 1/64, exactly. -/
theorem ofBits_inv64 : Ideal.ofBits .f32 0x3C800000#32 = ((1 / 64 : ℝ) : EReal) := by
  simp [Ideal.ofBits, Ideal.ieee, -EReal.coe_mul]; norm_num

/-- `0x44160000` is 600. -/
theorem ofBits_600 : Ideal.ofBits .f32 0x44160000#32 = ((600 : ℝ) : EReal) := by
  simp [Ideal.ofBits, Ideal.ieee, -EReal.coe_mul]; norm_num

/-- `0x42800000` is 64. -/
theorem ofBits_64 : Ideal.ofBits .f32 0x42800000#32 = ((64 : ℝ) : EReal) := by
  simp [Ideal.ofBits, Ideal.ieee, -EReal.coe_mul]; norm_num

/-- `0x40000000` is 2. -/
theorem ofBits_2 : Ideal.ofBits .f32 0x40000000#32 = ((2 : ℝ) : EReal) := by
  simp [Ideal.ofBits, Ideal.ieee, -EReal.coe_mul]; norm_num

/-- `+0.0` is 0. -/
theorem ofBits_0 : Ideal.ofBits .f32 0x00000000#32 = 0 := by
  simp [Ideal.ofBits, Ideal.ieee]

end Cert.Consts

end
-- ==== Proof.Spec.lean ====
/- The result both programs compute, as ONE function of the four argument arrays, and the law that joins their
   two ways of pooling over time.

   With x : [256, 300, 1152], W : [285, 1152], b : [285] and integer lengths len : [256], entry (p, q) of the result is

       ( ∑ₖ z(p, k) · W(q, k)  +  b(q) · 300 ) / len(p),      z(p, k) = (∑ₜ x(p, t, k)) · 2⁻⁶ − 600.

   The kernel pools first and rescales once; the reference rescales every frame, x/64 − 2, and then pools.
   Over the reals the two agree because the map u ↦ u/64 − 2 is affine and there are exactly 300 frames:
   ∑ₜ (xₜ/64 − 2) = (∑ₜ xₜ)/64 − 2·300. On the extended reals this needs every xₜ finite. -/
import Idealize.ShloMosaic.PureOps.Ideal
import Idealize.ShloMosaic.PureOps.Ideal.Laws
import Idealize.ShloMosaic.Lib.ValueIdx
import proofs.«180691_j89833535963820_1_alg».proof.Proof.Consts

noncomputable section

open scoped BigOperators

namespace Cert.Spec

open Idealize.ShloMosaic Idealize.ShloMosaic.ValueIdx

/-- The pooled and rescaled activations: the sum over the 300 frames, times 2⁻⁶, minus 600. -/
def pooled (x : (⟨3, ![256, 300, 1152]⟩ : Shape).Idx → EReal) (p : Fin 256) (k : Fin 1152) : EReal :=
  (∑ t : Fin 300, x (ix3 p t k)) * Ideal.ofBits .f32 0x3C800000#32 - Ideal.ofBits .f32 0x44160000#32

/-- The whole result: the pooled row against every row of `W`, plus the bias counted once per frame, over the
    row's length. -/
def result (x : (⟨3, ![256, 300, 1152]⟩ : Shape).Idx → EReal) (len : (⟨1, ![256]⟩ : Shape).Idx → BitVec 32)
    (W : (⟨2, ![285, 1152]⟩ : Shape).Idx → EReal) (b : (⟨1, ![285]⟩ : Shape).Idx → EReal) :
    (⟨2, ![256, 285]⟩ : Shape).Idx → EReal :=
  fun i => Ideal.div
    ((∑ k : Fin 1152, pooled x (i 0) k * W (ix2 (i 1) k)) + b (ix1 (i 1)) * Ideal.ofBits .f32 0x43960000#32)
    (FloatOps.sitofp (F := Ideal) .f32 (len (ix1 (i 0))))

/-- A finite sum of reals, read in the extended reals, is the sum of the terms read there. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- Pooling the rescaled frames is rescaling the pooled frames, when every frame is finite:
    0 + ∑ₜ (xₜ / 64 − 2) = (∑ₜ xₜ) · 2⁻⁶ − 600 over 300 frames. -/
theorem sum_rescaled_eq_pooled (x : (⟨3, ![256, 300, 1152]⟩ : Shape).Idx → EReal)
    (hx : ∀ i, ∃ r : ℝ, x i = (r : EReal)) (p : Fin 256) (k : Fin 1152) :
    Ideal.ofBits .f32 0x00000000#32
        + ∑ t : Fin 300, (Ideal.div (x (ix3 p t k)) (Ideal.ofBits .f32 0x42800000#32) - Ideal.ofBits .f32 0x40000000#32)
      = pooled x p k := by
  choose f hf using hx
  unfold pooled
  simp only [hf, Consts.ofBits_0, Consts.ofBits_64, Consts.ofBits_2, Consts.ofBits_inv64, Consts.ofBits_600,
    Ideal.div_coe (by norm_num : (64 : ℝ) ≠ 0), zero_add]
  simp only [← EReal.coe_mul, ← EReal.coe_sub, ← coe_sum]
  congr 1
  rw [Finset.sum_sub_distrib, ← Finset.sum_mul, Finset.sum_const, Finset.card_univ, Fintype.card_fin]
  norm_num

end Cert.Spec

end
-- ==== Proof.RefValue.lean ====
/- The reference's result is the specification, entry by entry, when every entry of `x` is a real.

   Read one operation at a time, entry (p, q) of the reference is
   ( ∑ₖ (0 + ∑ₜ (x(p,t,k)/64 − 2)) · W(q,k) + b(q)·300 ) / len(p); the inner sum is the pooled value
   (∑ₜ x(p,t,k))·2⁻⁶ − 600 by the affine law of the specification module, and the rest is the same expression. -/
import proofs.«180691_j89833535963820_1_alg».proof.Proof.Gen.ReferenceIdeal.Read
import proofs.«180691_j89833535963820_1_alg».proof.Proof.Spec

noncomputable section

open scoped BigOperators

namespace Cert.RefValue

open Cert.ReferenceIdeal Cert.ReferenceIdeal.Gen Cert.ReferenceIdeal.Read Idealize.ShloMosaic
  Idealize.ShloMosaic.ValueIdx

/-- The frame index of the reduce, under the dot's left index, is (p, t, k). -/
theorem idx_pool (i : S256x285.Idx) (k : Fin 1152) (t : Fin 300) :
    idx_main_v4 (lidx_main_v5 i k) t = ix3 (i 0) t k :=
  funext fun a => Fin.ext (by match a with | ⟨0, _⟩ => rfl | ⟨1, _⟩ => rfl | ⟨2, _⟩ => rfl)

/-- The dot's right index is (q, k). -/
theorem idx_w (i : S256x285.Idx) (k : Fin 1152) : ridx_main_v5 i k = ix2 (i 1) k :=
  funext fun a => Fin.ext (by match a with | ⟨0, _⟩ => rfl | ⟨1, _⟩ => rfl)

/-- The bias is read at q through its two broadcasts. -/
theorem idx_b (i : S256x285.Idx) : idx_main_v8 (idx_main_v9 i) = ix1 (i 1) :=
  funext fun a => Fin.ext (by match a with | ⟨0, _⟩ => rfl)

/-- The length is read at p through its two broadcasts. -/
theorem idx_len (i : S256x285.Idx) : idx_main_v12 (idx_main_v13 i) = ix1 (i 0) :=
  funext fun a => Fin.ext (by match a with | ⟨0, _⟩ => rfl)

/-- The reference's pooled stage at (p, k) is the specification's, for real `x`. -/
theorem pooled_eq (x0 : (⟨S256x300x1152, .f32⟩ : BufTy).Contents (Elt Ideal)) (hx : ∀ i, ∃ r : ℝ, x0 i = (r : EReal))
    (i : S256x285.Idx) (k : Fin 1152) :
    val_main_v4 (F := Ideal) x0 (lidx_main_v5 i k) = Cert.Spec.pooled x0 (i 0) k := by
  rw [val_main_v4_apply, val_main_cst_1_apply]
  simp only [val_main_v3_apply, val_main_v1_apply, val_main_v0_apply, val_main_v2_apply, val_main_cst_apply,
    val_main_cst_0_apply, idx_pool]
  exact Cert.Spec.sum_rescaled_eq_pooled x0 hx (i 0) k

/-- The reference's result is the specification. -/
theorem result_eq (x0 : (⟨S256x300x1152, .f32⟩ : BufTy).Contents (Elt Ideal)) (x1 : (⟨S256, .i32⟩ : BufTy).Contents (Elt Ideal))
    (x2 : (⟨S285x1152, .f32⟩ : BufTy).Contents (Elt Ideal)) (x3 : (⟨S285, .f32⟩ : BufTy).Contents (Elt Ideal))
    (hx : ∀ i, ∃ r : ℝ, x0 i = (r : EReal)) :
    val_main_v14 (F := Ideal) x0 x1 x2 x3 = Cert.Spec.result x0 x1 x2 x3 := by
  funext i
  rw [val_main_v14_apply, val_main_v10_apply, val_main_v5_apply, val_main_v9_apply, val_main_v8_apply,
    val_main_v7_apply, val_main_v6_apply, val_main_cst_2_apply, val_main_v13_apply, val_main_v12_apply,
    val_main_v11_apply]
  simp only [pooled_eq x0 hx, idx_w, idx_b, idx_len]
  rfl

end Cert.RefValue

end
-- ==== Proof.KernelBlock.lean ====
/- One grid point of the kernel, read entry by entry.

   A point sees an 8-row block of `x`, all of `W`, the bias as one row and 8 lengths as a column, and stores
   an 8 × 285 block. Entry (p, q) of what it stores is

       ( ∑ₖ ((∑ₜ x(p,t,k))·2⁻⁶ − 600) · W(q,k)  +  b(0,q)·300 ) / len(p,0):

   the lane sum over the 300 frames, the affine rescale, the product against the transposed weights (the change
   to the narrow float format is the identity on extended reals, and the product into a zero accumulator is the
   plain sum over the 1152 channels), the bias row and the length column each broadcast over the block. -/
import proofs.«180691_j89833535963820_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelBlock

open Cert.KernelIdeal Cert.KernelIdeal.Gen Idealize.ShloMosaic Idealize.ShloMosaic.ValueIdx

/-! ## The product's operand indices: output (p, q) and channel k meet the left operand at (p, k), the right at (k, q) -/

theorem lhs_row (i : S8x285.Idx) (c : dot_S8x1152_S1152x285_S8x285_1_0_0_1_n_n.contr.Idx) :
    (dot_S8x1152_S1152x285_S8x285_1_0_0_1_n_n.lhsIdx i c 0).val = (i 0).val := by
  unfold DotDims.lhsIdx
  rw [dif_neg (show ¬(0 : Fin S8x1152.rank) ∈ dot_S8x1152_S1152x285_S8x285_1_0_0_1_n_n.lhsBatch by decide), dif_pos (show (0 : Fin S8x1152.rank) ∈ dot_S8x1152_S1152x285_S8x285_1_0_0_1_n_n.lhsNonContracting by decide)]
  rfl
theorem lhs_chan (i : S8x285.Idx) (c : dot_S8x1152_S1152x285_S8x285_1_0_0_1_n_n.contr.Idx) :
    (dot_S8x1152_S1152x285_S8x285_1_0_0_1_n_n.lhsIdx i c 1).val = (c ⟨0, by decide⟩).val :=
  dot_S8x1152_S1152x285_S8x285_1_0_0_1_n_n.lhsIdx_val_of_single rfl i c
theorem rhs_chan (i : S8x285.Idx) (c : dot_S8x1152_S1152x285_S8x285_1_0_0_1_n_n.contr.Idx) :
    (dot_S8x1152_S1152x285_S8x285_1_0_0_1_n_n.rhsIdx i c 0).val = (c ⟨0, by decide⟩).val :=
  dot_S8x1152_S1152x285_S8x285_1_0_0_1_n_n.rhsIdx_val_of_single rfl i c
theorem rhs_col (i : S8x285.Idx) (c : dot_S8x1152_S1152x285_S8x285_1_0_0_1_n_n.contr.Idx) :
    (dot_S8x1152_S1152x285_S8x285_1_0_0_1_n_n.rhsIdx i c 1).val = (i 1).val := by
  unfold DotDims.rhsIdx
  rw [dif_neg (show ¬(1 : Fin S1152x285.rank) ∈ dot_S8x1152_S1152x285_S8x285_1_0_0_1_n_n.rhsBatch by decide), dif_pos (show (1 : Fin S1152x285.rank) ∈ dot_S8x1152_S1152x285_S8x285_1_0_0_1_n_n.rhsNonContracting by decide)]
  rfl

/-- The product into a zero accumulator, at (p, q): the sum over the channels of left (p, k) times right (k, q). -/
theorem product_at (l : FVec Ideal S8x1152 .bf16) (r : FVec Ideal S1152x285 .bf16) (p : Fin 8) (q : Fin 285) :
    matmul dot_S8x1152_S1152x285_S8x285_1_0_0_1_n_n none l r (constant (F := Ideal) S8x285 .f32 0x00000000#32) (ix2 p q)
      = ∑ k : Fin 1152, l (ix2 p k) * r (ix2 k q) := by
  simp only [matmul]
  rw [Ideal.matmul_constant_zero_apply, ← Equiv.sum_comp (contrEquiv1 dot_S8x1152_S1152x285_S8x285_1_0_0_1_n_n 1152 rfl rfl).symm]
  refine Finset.sum_congr rfl fun k _ => ?_
  have hk := contrEquiv1_symm_val dot_S8x1152_S1152x285_S8x285_1_0_0_1_n_n 1152 rfl rfl k
  have el : dot_S8x1152_S1152x285_S8x285_1_0_0_1_n_n.lhsIdx (ix2 p q) ((contrEquiv1 dot_S8x1152_S1152x285_S8x285_1_0_0_1_n_n 1152 rfl rfl).symm k) = ix2 p k := funext fun a => Fin.ext (by
    match a with
    | ⟨0, _⟩ => exact lhs_row _ _
    | ⟨1, _⟩ => exact (lhs_chan _ _).trans hk)
  have er : dot_S8x1152_S1152x285_S8x285_1_0_0_1_n_n.rhsIdx (ix2 p q) ((contrEquiv1 dot_S8x1152_S1152x285_S8x285_1_0_0_1_n_n 1152 rfl rfl).symm k) = ix2 k q := funext fun a => Fin.ext (by
    match a with
    | ⟨0, _⟩ => exact (rhs_chan _ _).trans hk
    | ⟨1, _⟩ => exact rhs_col _ _)
  rw [el, er]

/-! ## The pieces of the body at an entry -/

/-- The lane sum over the frames, at (p, k). -/
theorem frames_sum_at (v0 : FVec Ideal S8x300x1152 .f32) (p : Fin 8) (k : Fin 1152) :
    multiReduction .add [1] S8x1152 v0 0x00000000#32 reduces_S8x300x1152_S8x1152 (.inl rfl) rfl (ix2 p k)
      = ∑ t : Fin 300, v0 (ix3 p t k) := by
  refine (Ideal.multiReduction_add_single v0 0x00000000#32 reduces_S8x300x1152_S8x1152 (.inl rfl) rfl (ix2 p k)).trans ?_
  exact Finset.sum_congr rfl fun t _ => congrArg v0 (funext fun a => Fin.ext (by
    match a with | ⟨0, _⟩ => rfl | ⟨1, _⟩ => rfl | ⟨2, _⟩ => rfl))

/-- The pooled, rescaled block against the transposed weights, at (p, q). -/
theorem pooled_product_at (v0 : FVec Ideal S8x300x1152 .f32) (v6 : FVec Ideal S285x1152 .f32) (p : Fin 8) (q : Fin 285) :
    matmul dot_S8x1152_S1152x285_S8x285_1_0_0_1_n_n none
        (truncf .bf16 (subf (mulf (multiReduction .add [1] S8x1152 v0 0x00000000#32 reduces_S8x300x1152_S8x1152 (.inl rfl) rfl)
            (broadcast S8x1152 (Scalar.ofBits (F := Ideal) .f32 0x3C800000#32)))
          (broadcast S8x1152 (Scalar.ofBits (F := Ideal) .f32 0x44160000#32))) bitsLt_bf16_f32)
        (transpose S1152x285 [1, 0] (truncf .bf16 v6 bitsLt_bf16_f32) transposes_S285x1152_p1_0_S1152x285)
        (constant (F := Ideal) S8x285 .f32 0x00000000#32) (ix2 p q)
      = ∑ k : Fin 1152, ((∑ t : Fin 300, v0 (ix3 p t k)) * Ideal.ofBits .f32 0x3C800000#32 - Ideal.ofBits .f32 0x44160000#32)
          * v6 (ix2 q k) := by
  refine (product_at _ _ p q).trans (Finset.sum_congr rfl fun k _ => ?_)
  refine congrArg₂ (· * ·) ?_ ?_
  · show multiReduction .add [1] S8x1152 v0 0x00000000#32 reduces_S8x300x1152_S8x1152 (.inl rfl) rfl (ix2 p k)
        * Ideal.ofBits .f32 0x3C800000#32 - Ideal.ofBits .f32 0x44160000#32 = _
    rw [frames_sum_at]
  · exact transpose_ix2_apply _ _ k q

/-- The bias row times 300, broadcast down the block, at (p, q). -/
theorem bias_at (v11 : FVec Ideal S1x285 .f32) (p : Fin 8) (q : Fin 285) :
    broadcastTo S8x285 (mulf (shapeCast S1x285 v11 shapeCasts_S1x285_S1x285)
        (broadcast S1x285 (Scalar.ofBits (F := Ideal) .f32 0x43960000#32))) broadcasts_S1x285_S8x285 (ix2 p q)
      = v11 (ix2 (0 : Fin 1) q) * Ideal.ofBits .f32 0x43960000#32 := by
  refine (broadcastTo_1b_ab_apply _ _ p q).trans ?_
  rw [shapeCast_self]
  rfl

/-- The length column, broadcast across the block, at (p, q). -/
theorem length_at (v17 : FVec Ideal S8x1 .f32) (p : Fin 8) (q : Fin 285) :
    broadcastTo S8x285 (shapeCast S8x1 v17 shapeCasts_S8x1_S8x1) broadcasts_S8x1_S8x285 (ix2 p q)
      = v17 (ix2 p (0 : Fin 1)) := by
  rw [shapeCast_self]
  exact broadcastTo_apply v17 broadcasts_S8x1_S8x285 (ix2 p q) (ix2 p (0 : Fin 1)) fun ax => by
    match ax with
    | ⟨0, _⟩ => rfl
    | ⟨1, _⟩ => rfl

/-! ## The stored block at an entry -/

/-- Entry (p, q) of what the body stores, from the four loaded blocks. -/
theorem stored_at (v0 : FVec Ideal S8x300x1152 .f32) (v6 : FVec Ideal S285x1152 .f32) (v11 : FVec Ideal S1x285 .f32)
    (v17 : FVec Ideal S8x1 .f32) (p : Fin 8) (q : Fin 285) :
    k0_pay1 (F := Ideal) v0 v6 v11 v17 (ix2 p q)
      = Ideal.div
          ((∑ k : Fin 1152, ((∑ t : Fin 300, v0 (ix3 p t k)) * Ideal.ofBits .f32 0x3C800000#32 - Ideal.ofBits .f32 0x44160000#32)
              * v6 (ix2 q k))
            + v11 (ix2 (0 : Fin 1) q) * Ideal.ofBits .f32 0x43960000#32)
          (v17 (ix2 p (0 : Fin 1))) := by
  unfold k0_pay1
  exact congrArg₂ Ideal.div (congrArg₂ (· + ·) (pooled_product_at v0 v6 p q) (bias_at v11 p q)) (length_at v17 p q)

end Cert.KernelBlock

end
-- ==== Proof.KernelValue.lean ====
/- From the blocks to the array: after the kernel's run the result array is the specification.

   Grid point t (of 32) works on rows 8t … 8t+7: it reads that 8-row block of `x` and of the length column, all
   of `W` and the bias row, and writes back rows 8t … 8t+7 of the result. The bias row is the bias vector recast
   to one row and the length column is the integer lengths converted and recast to a column, both made before
   the kernel starts. Reading each input block where the output block's rows lie turns the body's stored entry
   (p, q) into the specification's entry (8t+p, q); and the 32 row blocks tile the 256 rows, so the whole array
   is the specification. -/
import proofs.«180691_j89833535963820_1_alg».proof.Proof.Gen.KernelIdeal.Value
import proofs.«180691_j89833535963820_1_alg».proof.Proof.KernelBlock
import proofs.«180691_j89833535963820_1_alg».proof.Proof.Spec
import Idealize.ShloMosaic.Lib.StableHlo.Run
import Idealize.ShloMosaic.Lib.ValueLayout

noncomputable section

open scoped BigOperators

namespace Cert.KernelValue

open Cert.KernelIdeal Cert.KernelIdeal.Gen Cert.KernelIdeal.Value Idealize.ShloMosaic Idealize.ShloMosaic.TcCoe
  Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The specification at the argument arrays as launched. -/
def spec (c : Dev nD) : S256x285.Idx → EReal :=
  Cert.Spec.result (m ((c : Thread nD τ).loc main_arg0)) (m ((c : Thread nD τ).loc main_arg1))
    (m ((c : Thread nD τ).loc main_arg2)) (m ((c : Thread nD τ).loc main_arg3))

/-! ## The two arrays made before the kernel starts -/

/-- A vector recast to a column reads, at (r, 0), the vector at r. -/
theorem shapeCast_col {α : Type} (x : (⟨1, ![256]⟩ : Shape).Idx → α)
    (h : (⟨1, ![256]⟩ : Shape).ShapeCasts ⟨2, ![256, 1]⟩) (r : Fin 256) (u : Fin 1) :
    shapeCast ⟨2, ![256, 1]⟩ x h (ix2 r u) = x (ix1 r) :=
  shapeCast_apply x h _ _ (by
    have hu : u.val = 0 := by omega
    rw [Shape.rowMajor_val_one, Shape.rowMajor_val_two]
    show r.val = r.val * 1 + u.val
    omega)

/-- The length column the kernel reads: the integer lengths converted, as a column. -/
theorem lengths_col (c : Dev nD) :
    (V m c main_v1 : S256x1.Idx → EReal)
      = shapeCast S256x1 (sitofp (F := Ideal) .f32 (m ((c : Thread nD τ).loc main_arg1))) shapeCasts_S256_S256x1 := by
  dsimp only [Gen.V, Gen.hostOps0]; after_results; rfl

/-- The bias row the kernel reads: the bias vector, as one row. -/
theorem bias_row (c : Dev nD) :
    (V m c main_v2 : S1x285.Idx → EReal)
      = shapeCast S1x285 (m ((c : Thread nD τ).loc main_arg3)) shapeCasts_S285_S1x285 := by
  dsimp only [Gen.V, Gen.hostOps0]; after_results; rfl

/-! ## Where each window's block lies -/

/-- The block indices over the grid: the blocks of `x`, of the length column and of the result move down with
    the point; `W` and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of point t's block is row 8t + p of the array. -/
def row (t : Fin cfg0.N) (p : Fin 8) : Fin 256 :=
  ⟨8 * t.val + p.val, by have hN : cfg0.N = 32 := N_0; have := t.isLt; have := p.isLt; omega⟩

theorem x_block (c : Dev nD) (t : Fin cfg0.N) (p : Fin 8) (s : Fin 300) (k : Fin 1152) :
    iblk m c 0 t (ix3 p s k) = V m c main_arg0 (ix3 (row t p) s k) := by
  show V m c main_arg0 (((cfg0.win 0).blk t).view.emb (ix3 p s k)) = _
  refine congrArg _ (funext fun a => Fin.ext ?_)
  obtain ⟨e0, e1, e2, -⟩ := idx_facts t
  match a with
  | ⟨0, _⟩ => show win0_0.index t (0 : Fin 3) * 8 + 1 * p.val = 8 * t.val + p.val; omega
  | ⟨1, _⟩ => show win0_0.index t (1 : Fin 3) * 300 + 1 * s.val = s.val; omega
  | ⟨2, _⟩ => show win0_0.index t (2 : Fin 3) * 1152 + 1 * k.val = k.val; omega

theorem w_block (c : Dev nD) (t : Fin cfg0.N) (q : Fin 285) (k : Fin 1152) :
    iblk m c 1 t (ix2 q k) = V m c main_arg2 (ix2 q k) := by
  show V m c main_arg2 (((cfg0.win 1).blk t).view.emb (ix2 q k)) = _
  refine congrArg _ (funext fun a => Fin.ext ?_)
  obtain ⟨-, -, -, e0, e1, -⟩ := idx_facts t
  match a with
  | ⟨0, _⟩ => show win0_1.index t (0 : Fin 2) * 285 + 1 * q.val = q.val; omega
  | ⟨1, _⟩ => show win0_1.index t (1 : Fin 2) * 1152 + 1 * k.val = k.val; omega

theorem b_block (c : Dev nD) (t : Fin cfg0.N) (u : Fin 1) (q : Fin 285) :
    iblk m c 2 t (ix2 u q) = V m c main_v2 (ix2 u q) := by
  show V m c main_v2 (((cfg0.win 2).blk t).view.emb (ix2 u q)) = _
  refine congrArg _ (funext fun a => Fin.ext ?_)
  obtain ⟨-, -, -, -, -, e0, e1, -⟩ := idx_facts t
  match a with
  | ⟨0, _⟩ => show win0_2.index t (0 : Fin 2) * 1 + 1 * u.val = u.val; omega
  | ⟨1, _⟩ => show win0_2.index t (1 : Fin 2) * 285 + 1 * q.val = q.val; omega

theorem len_block (c : Dev nD) (t : Fin cfg0.N) (p : Fin 8) (u : Fin 1) :
    iblk m c 3 t (ix2 p u) = V m c main_v1 (ix2 (row t p) u) := by
  show V m c main_v1 (((cfg0.win 3).blk t).view.emb (ix2 p u)) = _
  refine congrArg _ (funext fun a => Fin.ext ?_)
  obtain ⟨-, -, -, -, -, -, -, e0, e1, -⟩ := idx_facts t
  match a with
  | ⟨0, _⟩ => show win0_3.index t (0 : Fin 2) * 8 + 1 * p.val = 8 * t.val + p.val; omega
  | ⟨1, _⟩ => show win0_3.index t (1 : Fin 2) * 1 + 1 * u.val = u.val; omega

theorem out_block (t : Fin cfg0.N) (p : Fin 8) (q : Fin 285) :
    ((cfg0.win 4).blk t).view.emb (ix2 p q) = ix2 (row t p) q := by
  refine funext fun a => Fin.ext ?_
  obtain ⟨-, -, -, -, -, -, -, -, -, e0, e1⟩ := idx_facts t
  match a with
  | ⟨0, _⟩ => show win0_4.index t (0 : Fin 2) * 8 + 1 * p.val = 8 * t.val + p.val; omega
  | ⟨1, _⟩ => show win0_4.index t (1 : Fin 2) * 285 + 1 * q.val = q.val; omega

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point t writes back rows 8t … 8t+7 of the specification. -/
theorem flushed_eq (c : Dev nD) (t : Fin cfg0.N) :
    (dats m 0 c).flushed 4 t = ((cfg0.win 4).blk t).view.read (Elt Ideal) (spec m c) := by
  rw [flushed4]
  unfold out0_4
  rw [View.canon_unit_zero hz2]
  simp only [View.ld_unit_zero (S := S8x300x1152) hz3, View.ld_unit_zero (S := S285x1152) hz2,
    View.ld_unit_zero (S := S1x285) hz2, View.ld_unit_zero (S := S8x1) hz2]
  funext j
  obtain ⟨p, q, rfl⟩ : ∃ (p : Fin 8) (q : Fin 285), j = ix2 p q := ⟨j 0, j 1, eq_ix2 j⟩
  show k0_pay1 (F := Ideal) (iblk m c 0 t) (iblk m c 1 t) (iblk m c 2 t) (iblk m c 3 t) (ix2 p q)
    = spec m c (((cfg0.win 4).blk t).view.emb (ix2 p q))
  refine (Cert.KernelBlock.stored_at (iblk m c 0 t) (iblk m c 1 t) (iblk m c 2 t) (iblk m c 3 t) p q).trans ?_
  rw [out_block]
  simp only [x_block, w_block, b_block, len_block]
  rw [V_main_arg0, V_main_arg2, bias_row, lengths_col, shapeCast_a_1a_apply, shapeCast_col]
  rfl

/-! ## The whole array -/

/-- An index is in point t's block iff each coordinate is in the block's range on its axis. -/
theorem mem_blk (t : Fin cfg0.N) (i : S256x285.Idx) :
    i ∈ ((cfg0.win 4).blk t).view.set ↔ ∀ a : Fin 2, win0_4.index t a * S8x285.size a ≤ (i a).val
      ∧ (i a).val < win0_4.index t a * S8x285.size a + S8x285.size a := by
  show i ∈ ((View.whole main_v3).slice (win0_4.rect t)).set ↔ _
  rw [View.set_slice_whole, Rect.mem_set_unit]
  exact Iff.rfl

/-- Row r of the array is in the block of point r / 8. -/
theorem cover (i : S256x285.Idx) :
    ∃ t : Fin cfg0.N, (cfg0.win 4).flush t = true ∧ i ∈ ((cfg0.win 4).blk t).view.set := by
  have hN : cfg0.N = 32 := N_0
  have hi0 : (i 0).val < 256 := (i 0).isLt
  have hi1 : (i 1).val < 285 := (i 1).isLt
  obtain ⟨t, ht⟩ : ∃ t : Fin cfg0.N, t.val = (i 0).val / 8 := ⟨⟨(i 0).val / 8, by omega⟩, rfl⟩
  refine ⟨t, flush0_4 t, ?_⟩
  rw [mem_blk]
  obtain ⟨-, -, -, -, -, -, -, -, -, e0, e1⟩ := idx_facts t
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 285 ≤ (i 1).val ∧ (i 1).val < win0_4.index t (1 : Fin 2) * 285 + 285
    omega

/-- After the run the result array is the specification. -/
theorem final (c : Dev nD) : (dats m 0 c).arrAt 4 cfg0.N = spec m c :=
  (dats m 0 c).arrAt_eq_of_cover 4 (spec m c) (fun t _ => flushed_eq m c t) (fun i => cover i)

/-- The kernel's run: it ends with the result array at the specification and the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelValue

end
-- ==== Proof.lean ====
/- The kernel pools a [256, 300, 1152] activation array over its 300 frames, rescales the pooled rows
   (times 2⁻⁶, minus 600), multiplies them against the [285, 1152] weights, adds the bias counted once per frame
   (times 300) and divides each row by its integer length; the reference rescales every frame first (x/64 − 2),
   pools, and does the same product, bias and division. On the extended reals the two agree entry by entry:

     • the map u ↦ u/64 − 2 is affine and there are 300 frames, so ∑ₜ (xₜ/64 − 2) = (∑ₜ xₜ)·2⁻⁶ − 600 once every
       xₜ is a real number — which the precondition gives (|x| < +∞ everywhere);
     • the change to the narrow float format before the product is the identity, and the product into a zero
       accumulator is the plain sum over the 1152 channels, as the reference's contraction is;
     • the bias term and the division by the converted length are the same operations on the same arguments.

   The modules: Spec (the result as one function of the arguments, and the affine law), Consts (the literals'
   values), Finite (the precondition read back), RefValue (the reference is the specification), KernelBlock (one
   grid point's stored block, entry by entry), KernelValue (the 32 row blocks tile the array). The three frames
   are the generated ones (the reference's is its generated run with the result dropped), and the idealization
   rewrote nothing, so its conjunct is trivial. -/
import proofs.«180691_j89833535963820_1_alg».proof.Defs
import proofs.«180691_j89833535963820_1_alg».proof.Proof.Gen.Kernel
import proofs.«180691_j89833535963820_1_alg».proof.Proof.Gen.Kernel.Skeleton
import proofs.«180691_j89833535963820_1_alg».proof.Proof.Gen.Kernel.Launch
import proofs.«180691_j89833535963820_1_alg».proof.Proof.Gen.Kernel.Points
import proofs.«180691_j89833535963820_1_alg».proof.Proof.Gen.Kernel.Frame
import proofs.«180691_j89833535963820_1_alg».proof.Proof.Gen.KernelIdeal
import proofs.«180691_j89833535963820_1_alg».proof.Proof.Gen.KernelIdeal.Skeleton
import proofs.«180691_j89833535963820_1_alg».proof.Proof.Gen.KernelIdeal.Launch
import proofs.«180691_j89833535963820_1_alg».proof.Proof.Gen.KernelIdeal.Points
import proofs.«180691_j89833535963820_1_alg».proof.Proof.Gen.KernelIdeal.Frame
import proofs.«180691_j89833535963820_1_alg».proof.Proof.Gen.ReferenceIdeal
import proofs.«180691_j89833535963820_1_alg».proof.Proof.Gen.Pre_finite_inputs
import proofs.«180691_j89833535963820_1_alg».proof.Proof.Gen.KernelIdeal.Value
import proofs.«180691_j89833535963820_1_alg».proof.Proof.Gen.ReferenceIdeal.Run
import proofs.«180691_j89833535963820_1_alg».proof.Proof.Gen.ReferenceIdeal.Read
import proofs.«180691_j89833535963820_1_alg».proof.Proof.Finite
import proofs.«180691_j89833535963820_1_alg».proof.Proof.RefValue
import proofs.«180691_j89833535963820_1_alg».proof.Proof.KernelValue
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree and a finite `x`, both programs end with the result array at the specification:
    the kernel block by block, the reference operation by operation with the affine law on the pooled frames. -/
theorem algebraic : Cert.algebraic_KernelIdeal_ReferenceIdeal := by
  intro m ρ m' ρ' hpre hagree
  refine ⟨fun c => Cert.KernelValue.spec m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2]
  exact Cert.RefValue.result_eq _ _ _ _ (Cert.Finite.x_real _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
